-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, as values.

  The body keeps a 1024 x 1024 accumulator tile in a scratch buffer. At every grid point it adds to the accumulator
  the product of the point's activation tile with the quantized weight tile (the payload `k0_pay2`, a function of
  the two input tiles and of the accumulator it read). At the first of the four contraction steps the accumulator
  it reads is the zero tile it has just stored (`k0_pay1`); at the last step the output tile receives a copy of the
  freshly stored accumulator. Each statement below reads back the stores of one control case (first step, middle
  step, last step): every store covers the whole tile, so the last store into a buffer is what the buffer holds.
-/
import proofs.«134699_j82325933130246_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The tile's origin. -/
theorem hz : (![0, 0] : Fin 2 → Nat) = fun _ => 0 := funext fun a => by fin_cases a <;> rfl

/-- First contraction step: the accumulator is reset to the zero tile and then receives zero plus the step's
    product. -/
theorem scr_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle contraction step: the accumulator the point before left, plus the step's product. -/
theorem scr_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- The last contraction step leaves the same in the accumulator … -/
theorem scr_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and copies it into the output tile. -/
theorem out_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.Pieces

end
-- ==== Proof.LibTransposedRhsDot.lean ====
/-
  A two-dimensional contraction whose right operand is contracted on its LAST axis, read at one element over the
  extended reals.

  For the dimension numbers of an [M, K] by [N, K] product (the left operand's axis 1 contracted against the right
  operand's axis 1, no batch axis), entry (p, q) of the product is the sum over k of lhs (p, k) · rhs (q, k): the
  product of the left matrix with the TRANSPOSE of the right one. This holds of a kernel's matrix product into a zero
  accumulator and of the host's dot_general alike, whatever the precision attribute: at the extended reals both are the
  textbook contraction. Generic in the three extents.
-/
import Idealize.ShloMosaic.PureOps.Ideal.Laws
import Idealize.ShloMosaic.Lib.ValueIdx

noncomputable section

namespace Cert.Lib.TransposedRhsDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.transposedRhs M K N).contr.Idx) :
    ((DotDims.transposedRhs M K N).lhsIdx i r 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Axis 1 of the left operand is the contracted one: it reads the contraction position. -/
theorem lhs_axis1 (i : (⟨2, ![M, N]⟩ : Shape).Idx) (r : (DotDims.transposedRhs M K N).contr.Idx) :
    ((DotDims.transposedRhs M K N).lhsIdx i r 1).val = (r ⟨0, Nat.one_pos⟩).val :=
  (DotDims.transposedRhs M K N).lhsIdx_val_of_single rfl i r

/-- Axis 0 of the right operand is free: it reads the output's COLUMN coordinate. -/
theorem rhs_axis0 (i : (⟨2, ![M, N]⟩ : Shape).Idx) (r : (DotDims.transposedRhs M K N).contr.Idx) :
    ((DotDims.transposedRhs M K N).rhsIdx i r 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- Axis 1 of the right operand is the contracted one. -/
theorem rhs_axis1 (i : (⟨2, ![M, N]⟩ : Shape).Idx) (r : (DotDims.transposedRhs M K N).contr.Idx) :
    ((DotDims.transposedRhs M K N).rhsIdx i r 1).val = (r ⟨0, Nat.one_pos⟩).val :=
  (DotDims.transposedRhs M K N).rhsIdx_val_of_single rfl i r

/-- The contraction's sum over its one-axis index shape, re-indexed by that axis' coordinate: the sum over
    `k : Fin K` of lhs (p, k) · rhs (q, k). -/
theorem sum_eq (lhs : (⟨2, ![M, K]⟩ : Shape).Idx → EReal) (rhs : (⟨2, ![N, K]⟩ : Shape).Idx → EReal)
    (p : Fin M) (q : Fin N) :
    (∑ r : (DotDims.transposedRhs M K N).contr.Idx,
        lhs ((DotDims.transposedRhs M K N).lhsIdx (ix2 p q) r) * rhs ((DotDims.transposedRhs M K N).rhsIdx (ix2 p q) r))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 M K N _ _
      | ⟨1, _⟩ => exact (rhs_axis1 M K N _ _).trans hk)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq M K N lhs rhs p q

end Cert.Lib.TransposedRhsDot

end
-- ==== Proof.Ternary.lean ====
/-
  The ternary quantizer and the blocked contraction, over the extended reals.

  A weight w is quantized to 1 when w > 1/2, to -1 when w < -1/2, and to 0 otherwise. The linear layer multiplies a
  row of activations with the quantized rows of the weight matrix: entry (r, n) is the sum over k of
  x (r, k) · quant (w (n, k)).

  A tile of the product whose contraction axis is cut into four consecutive stretches of 1024 is the sum of the four
  partial products taken in order, starting from zero; the extended reals under addition are a commutative monoid,
  so the four partial sums add up to the whole sum whatever the entries are (no finiteness is needed).
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Ternary

open Idealize.ShloMosaic Idealize.ShloMosaic.ValueIdx

/-- The ternary quantizer on one extended real: 1 above 1/2, -1 below -1/2, else 0 (the words are the binary32
    patterns of 1/2, 1, -1/2, -1 and 0). -/
def quant (w : Ideal .f32) : Ideal .f32 :=
  Scalar.select (FloatOps.cmpf .ogt w (FloatOps.ofBits .f32 0x3F000000#32)) (FloatOps.ofBits .f32 0x3F800000#32)
    (Scalar.select (FloatOps.cmpf .olt w (FloatOps.ofBits .f32 0xBF000000#32)) (FloatOps.ofBits .f32 0xBF800000#32)
      (FloatOps.ofBits .f32 0x00000000#32))

/-- Entry (p, q) of one contraction step's product of a 1024 x 1024 activation tile with the transposed quantized
    weight tile: the sum over the tile's 1024 contraction positions. -/
def bdot (x w : (⟨2, ![1024, 1024]⟩ : Shape).Idx → Ideal .f32) (p q : Fin 1024) : Ideal .f32 :=
  ∑ k : Fin 1024, x (ix2 p k) * quant (w (ix2 q k))

/-- Position `kk` of stretch `kb` of the contraction axis: `1024 · kb + kk`. -/
abbrev kpos (kb : Fin 4) (kk : Fin 1024) : Fin 4096 := ⟨1024 * kb.val + kk.val, by have := kb.isLt; have := kk.isLt; omega⟩

/-- A sum over the 4096 contraction positions is the sum over the four stretches of the sums inside each. -/
theorem sum_split {M : Type*} [AddCommMonoid M] (f : Fin 4096 → M) :
    ∑ k : Fin 4096, f k = ∑ kb : Fin 4, ∑ kk : Fin 1024, f (kpos kb kk) := by
  rw [← Fintype.sum_prod_type']
  rw [← Equiv.sum_comp (finProdFinEquiv (m := 4) (n := 1024)) f]
  refine Finset.sum_congr rfl fun x _ => congrArg f (Fin.ext ?_)
  show (x.2.val + 1024 * x.1.val) = 1024 * x.1.val + x.2.val
  omega

/-- The ordered chain of four partial sums from zero is the whole sum. -/
theorem chain_eq_sum {M : Type*} [AddCommMonoid M] (g : Fin 4 → M) :
    (((0 + g 0) + g 1) + g 2) + g 3 = ∑ kb : Fin 4, g kb := by
  rw [Fin.sum_univ_four, zero_add]

end Cert.Ternary

end
-- ==== Proof.Payload.lean ====
/-
  The kernel's arithmetic at one entry of a tile, over the extended reals.

  One contraction step adds to the accumulator tile the product of the activation tile with the transposed
  quantized weight tile. Narrowing the operands to bfloat16 changes nothing over the extended reals, and the matrix
  unit's product into a zero accumulator is the textbook sum: entry (p, q) of the step's result is the accumulator
  at (p, q) plus the sum over k of x (p, k) · quant (w (q, k)).
-/
import proofs.«134699_j82325933130246_1_alg».proof.Proof.Gen.KernelIdeal.Skeleton
import proofs.«134699_j82325933130246_1_alg».proof.Proof.LibTransposedRhsDot
import proofs.«134699_j82325933130246_1_alg».proof.Proof.Ternary
import Idealize.ShloMosaic.Lib.Pipeline.Value

noncomputable section

open scoped BigOperators

namespace Cert.KernelIdeal.Payload

open Idealize.ShloMosaic Idealize.ShloMosaic.ValueIdx
open Cert.KernelIdeal Cert.KernelIdeal.Gen Cert.Ternary

/-- The zero tile the first step stores is zero at every entry. -/
theorem pay1_apply (j : S1024x1024.Idx) : k0_pay1 (F := Ideal) j = 0 := by
  unfold k0_pay1
  rw [shapeCast_self]
  exact Ideal.ofBits_zero_f32

/-- One step at entry (p, q): the accumulator there plus the row-by-row product of the activations with the
    quantized weights. -/
theorem pay2_apply (x w acc : Vec Ideal S1024x1024 .f32) (p q : Fin 1024) :
    k0_pay2 (F := Ideal) x w acc (ix2 p q)
      = acc (ix2 p q) + ∑ k : Fin 1024, x (ix2 p k) * quant (w (ix2 q k)) := by
  unfold k0_pay2
  simp only [shapeCast_self]
  rw [addf_apply]
  refine congrArg (acc (ix2 p q) + ·) ?_
  simp only [matmul]
  refine (Cert.Lib.TransposedRhsDot.matmul_zero_apply 1024 1024 1024 none _ _ p q).trans ?_
  rfl

end Cert.KernelIdeal.Payload

end
-- ==== Proof.Chain.lean ====
/-
  The accumulator along the grid, and what the output tile receives.

  The 128 grid points are numbered row-major over (i, j, k) with k fastest: point n has k = n mod 4. Along the four
  points of one (i, j) the accumulator tile is reset and then grows by one contraction step at a time; the output tile
  of (i, j) is stored at the fourth of them, as a copy of the accumulator. So entry (p, q) of the output tile stored at
  point n + 3 (n a multiple of 4) is the ordered chain
      (((0 + D n) + D (n + 1)) + D (n + 2)) + D (n + 3),
  where D s is entry (p, q) of the product of point s's activation tile with its transposed quantized weight tile.
-/
import proofs.«134699_j82325933130246_1_alg».proof.Proof.Pieces
import proofs.«134699_j82325933130246_1_alg».proof.Proof.Payload

noncomputable section

open scoped BigOperators

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.Ternary

section AnyValues

variable {F : FTy → Type} [FloatOps F]
variable (m : (ℓ : Loc nD τ sig) → Buf (Elt F) ℓ)

/-- The activation tile point `t` works on. -/
abbrev xblk (c : Dev nD) (t : Fin cfg0.N) : Vec F S1024x1024 .f32 := iblk m c 0 t
/-- The weight tile point `t` works on. -/
abbrev wblk (c : Dev nD) (t : Fin cfg0.N) : Vec F S1024x1024 .f32 := iblk m c 1 t
/-- The accumulator tile after point `n`. -/
abbrev acc (c : Dev nD) (n : ℕ) (h : n < cfg0.N) : Vec F S1024x1024 .f32 := (outsAt0 m c n h).2

/-- At the first of the four contraction steps the accumulator is one step from the zero tile. -/
theorem acc_first (c : Dev nD) (n : ℕ) (h : n < cfg0.N) (h0 : n % 4 = 0) :
    acc m c n h = k0_pay2 (xblk m c ⟨n, h⟩) (wblk m c ⟨n, h⟩) (k0_pay1 (F := F)) := by
  have h1 : ¬(⟨n, h⟩ : Fin cfg0.N).val % 4 = 3 := by dsimp only; omega
  have h0' : (⟨n, h⟩ : Fin cfg0.N).val % 4 = 0 := h0
  show (outsAt0 m c (⟨n, h⟩ : Fin cfg0.N).val (⟨n, h⟩ : Fin cfg0.N).isLt).2 = _
  rw [outsAt0_A m c ⟨n, h⟩ h0' h1]
  dsimp only
  exact Pieces.scr_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0') (fun hh => h1 ((hcond0_1 ⟨n, h⟩).mp hh)) (iblk m c 0 ⟨n, h⟩) (iblk m c 1 ⟨n, h⟩)

/-- At each later step it is one step from what the point before left. -/
theorem acc_next (c : Dev nD) (n : ℕ) (h : n + 1 < cfg0.N) (h0 : ¬(n + 1) % 4 = 0) :
    acc m c (n + 1) h = k0_pay2 (xblk m c ⟨n + 1, h⟩) (wblk m c ⟨n + 1, h⟩) (acc m c n (Nat.lt_of_succ_lt h)) := by
  have h0' : ¬(⟨n + 1, h⟩ : Fin cfg0.N).val % 4 = 0 := h0
  show (outsAt0 m c (⟨n + 1, h⟩ : Fin cfg0.N).val (⟨n + 1, h⟩ : Fin cfg0.N).isLt).2 = _
  by_cases h1 : (⟨n + 1, h⟩ : Fin cfg0.N).val % 4 = 3
  · rw [outsAt0_C m c ⟨n + 1, h⟩ h0' h1]
    dsimp only
    exact Pieces.scr_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2
  · rw [outsAt0_B m c ⟨n + 1, h⟩ h0' h1]
    dsimp only
    exact Pieces.scr_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2

/-- At the fourth step the output tile receives the same tile as the accumulator. -/
theorem out_last (c : Dev nD) (n : ℕ) (h : n + 1 < cfg0.N) (h3 : (n + 1) % 4 = 3) :
    (outsAt0 m c (n + 1) h).1 = k0_pay2 (xblk m c ⟨n + 1, h⟩) (wblk m c ⟨n + 1, h⟩) (acc m c n (Nat.lt_of_succ_lt h)) := by
  have h0' : ¬(⟨n + 1, h⟩ : Fin cfg0.N).val % 4 = 0 := by dsimp only; omega
  have h3' : (⟨n + 1, h⟩ : Fin cfg0.N).val % 4 = 3 := h3
  show (outsAt0 m c (⟨n + 1, h⟩ : Fin cfg0.N).val (⟨n + 1, h⟩ : Fin cfg0.N).isLt).1 = _
  rw [outsAt0_C m c ⟨n + 1, h⟩ h0' h3']
  dsimp only
  exact Pieces.out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) ((hcond0_1 ⟨n + 1, h⟩).mpr h3') (iblk m c 0 ⟨n + 1, h⟩) (iblk m c 1 ⟨n + 1, h⟩) (outsAt0 m c n (Nat.lt_of_succ_lt h)).2

end AnyValues

section AtIdeal

variable (m : (ℓ : Loc nD τ sig) → Buf (Elt Ideal) ℓ)

/-- Entry (p, q) of the step's product at point `s`. -/
abbrev D (c : Dev nD) (s : ℕ) (h : s < cfg0.N) (p q : Fin 1024) : Ideal .f32 :=
  bdot (xblk m c ⟨s, h⟩) (wblk m c ⟨s, h⟩) p q

/-- THE OUTPUT TILE stored at point n + 3, n a multiple of 4, entry by entry: the ordered chain of the four steps'
    products from zero. -/
theorem out_entry (c : Dev nD) (n : ℕ) (h : n + 3 < cfg0.N) (h4 : n % 4 = 0) (p q : Fin 1024) :
    (outsAt0 m c (n + 3) h).1 (ix2 p q)
      = (((0 + D m c n (by omega) p q) + D m c (n + 1) (by omega) p q) + D m c (n + 2) (by omega) p q) + D m c (n + 3) h p q := by
  rw [out_last m c (n + 2) h (by omega), Payload.pay2_apply,
    acc_next m c (n + 1) (by omega) (by omega), Payload.pay2_apply,
    acc_next m c n (by omega) (by omega), Payload.pay2_apply,
    acc_first m c n (by omega) h4, Payload.pay2_apply, Payload.pay1_apply]
  rfl

end AtIdeal

end Cert.KernelIdeal.Chain

end
-- ==== Proof.Layout.lean ====
/-
  The linear layer on [4, 2048, 4096] activations, and its flattened form.

  The layer's result at (b, s, o) is the sum over k of x (b, s, k) · quant (w (o, k)). Flattening the two leading axes
  of the activations into rows 2048 b + s gives an [8192, 4096] matrix; the product of that matrix with the transposed
  quantized weights, with its rows laid out again as [4, 2048], is the layer's result: a reshape keeps the row-major
  position, and 2048 b + s is the row-major position of (b, s).
-/
import proofs.«134699_j82325933130246_1_alg».proof.Proof.Ternary
import Idealize.ShloMosaic.Lib.Pipeline.Value

noncomputable section

open scoped BigOperators

namespace Cert.Ternary

open Idealize.ShloMosaic Idealize.ShloMosaic.ValueIdx

/-- The activations' shape, its flattened form, and the weights' shape. -/
abbrev SX3 : Shape := ⟨3, ![4, 2048, 4096]⟩
abbrev SX2 : Shape := ⟨2, ![8192, 4096]⟩
abbrev SW : Shape := ⟨2, ![4096, 4096]⟩

/-- The layer: entry (b, s, o) is the sum over k of x (b, s, k) · quant (w (o, k)). -/
def linear (x : SX3.Idx → Ideal .f32) (w : SW.Idx → Ideal .f32) : SX3.Idx → Ideal .f32 :=
  fun i => ∑ k : Fin 4096, x (ix3 (i 0) (i 1) k) * quant (w (ix2 (i 2) k))

/-- The flattened product: entry (r, n) is the sum over k of x (r, k) · quant (w (n, k)). -/
def prod2 (x : SX2.Idx → Ideal .f32) (w : SW.Idx → Ideal .f32) : SX2.Idx → Ideal .f32 :=
  fun j => ∑ k : Fin 4096, x (ix2 (j 0) k) * quant (w (ix2 (j 1) k))

/-- Row 2048 b + s of the flattened activations. -/
abbrev flatRow (b : Fin 4) (s : Fin 2048) : Fin 8192 := ⟨2048 * b.val + s.val, by have := b.isLt; have := s.isLt; omega⟩

/-- The flattened activations at (2048 b + s, k) are the activations at (b, s, k). -/
theorem flatten_apply (x : SX3.Idx → Ideal .f32) (h : SX3.ShapeCasts SX2) (b : Fin 4) (s : Fin 2048) (k : Fin 4096) :
    shapeCast SX2 x h (ix2 (flatRow b s) k) = x (ix3 b s k) :=
  shapeCast_apply x h (ix2 (flatRow b s) k) (ix3 b s k) (by
    rw [Shape.rowMajor_val_three, Shape.rowMajor_val_two]
    show (b.val * 2048 + s.val) * 4096 + k.val = (2048 * b.val + s.val) * 4096 + k.val
    omega)

/-- The flattened product of the flattened activations, laid out again as [4, 2048, 4096], is the layer. -/
theorem unflatten_prod (x : SX3.Idx → Ideal .f32) (w : SW.Idx → Ideal .f32) (h1 : SX3.ShapeCasts SX2) (h2 : SX2.ShapeCasts SX3) :
    shapeCast SX3 (prod2 (shapeCast SX2 x h1) w) h2 = linear x w := by
  funext i
  obtain ⟨b, s, o, rfl⟩ : ∃ (b : Fin 4) (s : Fin 2048) (o : Fin 4096), i = ix3 b s o := ⟨i 0, i 1, i 2, eq_ix3 i⟩
  rw [shapeCast_apply _ h2 (ix3 b s o) (ix2 (flatRow b s) o) (by
    rw [Shape.rowMajor_val_two, Shape.rowMajor_val_three]
    show (2048 * b.val + s.val) * 4096 + o.val = (b.val * 2048 + s.val) * 4096 + o.val
    omega)]
  unfold prod2 linear
  refine Finset.sum_congr rfl fun k _ => ?_
  show shapeCast SX2 x h1 (ix2 (flatRow b s) k) * _ = x (ix3 b s k) * _
  rw [flatten_apply]

end Cert.Ternary

end
-- ==== Proof.Tiles.lean ====
/-
  From the tiles to the whole product, and the kernel's result array.

  Grid point t = 16 i + 4 j + k works on rows 1024 i … of the flattened activations and on rows 1024 j … of the
  weights, both at columns 1024 k …, and the output tile of (i, j) lies at rows 1024 i … and columns 1024 j … of the
  [8192, 4096] product. Entry (r, n) of the product array is therefore the chain of the four steps' partial sums of
  its tile, which is the whole sum over the 4096 contraction positions of x (r, k) · quant (w (n, k)). The 32 output
  tiles cover the product array, and the host's final reshape lays its rows out as [4, 2048, 4096].
-/
import proofs.«134699_j82325933130246_1_alg».proof.Proof.Chain
import proofs.«134699_j82325933130246_1_alg».proof.Proof.Layout
import Idealize.ShloMosaic.Lib.StableHlo.Run

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Ternary Cert.KernelIdeal.Chain

/-- Where each window's tile lies at point t, read off the printed index maps over the grid: the activations' at tile
    row t / 16 and tile column t mod 4, the weights' at tile row (t / 4) mod 4 and tile column t mod 4, the output's at
    tile row t / 16 and tile column (t / 4) mod 4. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

section AnyValues

variable {F : FTy → Type} [FloatOps F]
variable (m : (ℓ : Loc nD τ sig) → Buf (Elt F) ℓ)

/-- The flattened activations as the region finds them. -/
abbrev xarr (c : Dev nD) : Vec F S8192x4096 .f32 := V m c main_v0
/-- The weights as the region finds them. -/
abbrev warr (c : Dev nD) : Vec F S4096x4096 .f32 := V m c main_arg1

/-- The activation tile of point s at (p, kk) is the array at row 1024 (s / 16) + p, column 1024 (s mod 4) + kk. -/
theorem xblk_at (c : Dev nD) (s : Fin cfg0.N) (p kk : Fin 1024) (r : Fin 8192) (k : Fin 4096)
    (hr : r.val = 1024 * (s.val / 16) + p.val) (hk : k.val = 1024 * (s.val % 4) + kk.val) :
    xblk m c s (ix2 p kk) = xarr m c (ix2 r k) := by
  obtain ⟨e0, e1, -, -, -, -⟩ := idx_facts s
  show iblk m c 0 s (ix2 p kk) = _
  unfold iblk
  rw [View.read_apply]
  show V m c main_v0 _ = V m c main_v0 _
  refine congrArg (V m c main_v0) (funext fun a => Fin.ext ?_)
  match a with
  | ⟨0, _⟩ => show win0_0.index s (0 : Fin 2) * 1024 + 1 * p.val = r.val; omega
  | ⟨1, _⟩ => show win0_0.index s (1 : Fin 2) * 1024 + 1 * kk.val = k.val; omega

/-- The weight tile of point s at (q, kk) is the array at row 1024 ((s / 4) mod 4) + q, column 1024 (s mod 4) + kk. -/
theorem wblk_at (c : Dev nD) (s : Fin cfg0.N) (q kk : Fin 1024) (n k : Fin 4096)
    (hn : n.val = 1024 * (s.val / 4 % 4) + q.val) (hk : k.val = 1024 * (s.val % 4) + kk.val) :
    wblk m c s (ix2 q kk) = warr m c (ix2 n k) := by
  obtain ⟨-, -, e2, e3, -, -⟩ := idx_facts s
  show iblk m c 1 s (ix2 q kk) = _
  unfold iblk
  rw [View.read_apply]
  show V m c main_arg1 _ = V m c main_arg1 _
  refine congrArg (V m c main_arg1) (funext fun a => Fin.ext ?_)
  match a with
  | ⟨0, _⟩ => show win0_1.index s (0 : Fin 2) * 1024 + 1 * q.val = n.val; omega
  | ⟨1, _⟩ => show win0_1.index s (1 : Fin 2) * 1024 + 1 * kk.val = k.val; omega

end AnyValues

section AtIdeal

variable (m : (ℓ : Loc nD τ sig) → Buf (Elt Ideal) ℓ) (ρ : Dev nD → PrngReg)

/-- One step's product at point s, entry (p, q), is the stretch `kb = s mod 4` of the whole sum at the entry's row and
    column of the arrays. -/
theorem D_eq (c : Dev nD) (s : ℕ) (h : s < cfg0.N) (p q : Fin 1024) (r : Fin 8192) (n : Fin 4096) (kb : Fin 4)
    (hr : r.val = 1024 * (s / 16) + p.val) (hn : n.val = 1024 * (s / 4 % 4) + q.val) (hkb : s % 4 = kb.val) :
    D m c s h p q = ∑ kk : Fin 1024, xarr m c (ix2 r (kpos kb kk)) * quant (warr m c (ix2 n (kpos kb kk))) := by
  unfold D bdot
  refine Finset.sum_congr rfl fun kk _ => ?_
  rw [xblk_at m c ⟨s, h⟩ p kk r (kpos kb kk) hr (by show 1024 * kb.val + kk.val = 1024 * (s % 4) + kk.val; omega),
    wblk_at m c ⟨s, h⟩ q kk n (kpos kb kk) hn (by show 1024 * kb.val + kk.val = 1024 * (s % 4) + kk.val; omega)]

/-- WHAT A STORING POINT WRITES BACK is its tile of the product of the arrays as the region finds them. -/
theorem flushed_eq (c : Dev nD) (t : Fin cfg0.N) (hf : (cfg0.win 2).flush t = true) :
    (dats m 0 c).flushed 2 t = ((cfg0.win 2).blk t).view.read (Elt Ideal) (prod2 (xarr m c) (warr m c)) := by
  have h3 : t.val % 4 = 3 := (flush0_2 t).mp hf
  obtain ⟨-, -, -, -, e4, e5⟩ := idx_facts t
  obtain ⟨tv, ht⟩ := t
  obtain ⟨n, rfl⟩ : ∃ n, tv = n + 3 := ⟨tv - 3, by dsimp only at h3; omega⟩
  dsimp only at h3 e4 e5
  show (cfg0.win 2).cut (grid0.coords ⟨n + 3, ht⟩) ((dats m 0 c).after 2 ⟨n + 3, ht⟩) = _
  rw [after0_2]
  funext y
  obtain ⟨p, q, rfl⟩ : ∃ (p : Fin 1024) (q : Fin 1024), y = ix2 p q := ⟨y 0, y 1, eq_ix2 y⟩
  rw [View.read_apply]
  show (outsAt0 m c (n + 3) ht).1 (ix2 p q) = prod2 (xarr m c) (warr m c) (((cfg0.win 2).blk ⟨n + 3, ht⟩).view.emb (ix2 p q))
  obtain ⟨r, nn, hr, hn, he⟩ : ∃ (r : Fin 8192) (nn : Fin 4096),
      r.val = win0_2.index ⟨n + 3, ht⟩ (0 : Fin 2) * 1024 + 1 * p.val
      ∧ nn.val = win0_2.index ⟨n + 3, ht⟩ (1 : Fin 2) * 1024 + 1 * q.val
      ∧ ((cfg0.win 2).blk ⟨n + 3, ht⟩).view.emb (ix2 p q) = ix2 r nn :=
    ⟨((cfg0.win 2).blk ⟨n + 3, ht⟩).view.emb (ix2 p q) 0, ((cfg0.win 2).blk ⟨n + 3, ht⟩).view.emb (ix2 p q) 1, rfl, rfl, eq_ix2 _⟩
  rw [he, out_entry m c n ht (by omega) p q]
  show _ = ∑ k : Fin 4096, xarr m c (ix2 r k) * quant (warr m c (ix2 nn k))
  rw [sum_split, ← chain_eq_sum]
  rw [D_eq m c n (by omega) p q r nn 0 (by omega) (by omega) (by show n % 4 = 0; omega),
    D_eq m c (n + 1) (by omega) p q r nn 1 (by omega) (by omega) (by show (n + 1) % 4 = 1; omega),
    D_eq m c (n + 2) (by omega) p q r nn 2 (by omega) (by omega) (by show (n + 2) % 4 = 2; omega),
    D_eq m c (n + 3) ht p q r nn 3 (by omega) (by omega) (by show (n + 3) % 4 = 3; omega)]

/-- An index of the product array is in point t's output tile iff each coordinate is in the tile's range. -/
theorem mem_tile (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry (r, n) lies in the tile stored at point 16 (r / 1024) + 4 (n / 1024) + 3. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  refine ⟨⟨16 * ((i 0).val / 1024) + 4 * ((i 1).val / 1024) + 3, by omega⟩, ?_, ?_⟩
  · exact (flush0_2 _).mpr (by dsimp only; omega)
  · obtain ⟨-, -, -, -, e4, e5⟩ := idx_facts ⟨16 * ((i 0).val / 1024) + 4 * ((i 1).val / 1024) + 3, by omega⟩
    dsimp only at e4 e5
    rw [mem_tile]
    intro a
    match a with
    | ⟨0, _⟩ =>
      show win0_2.index _ (0 : Fin 2) * 1024 ≤ (i 0).val ∧ (i 0).val < win0_2.index _ (0 : Fin 2) * 1024 + 1024
      omega
    | ⟨1, _⟩ =>
      show win0_2.index _ (1 : Fin 2) * 1024 ≤ (i 1).val ∧ (i 1).val < win0_2.index _ (1 : Fin 2) * 1024 + 1024
      omega

/-- THE PRODUCT ARRAY after the region. -/
theorem final (c : Dev nD) : (dats m 0 c).arrAt 2 cfg0.N = prod2 (xarr m c) (warr m c) :=
  (dats m 0 c).arrAt_eq_of_cover 2 (prod2 (xarr m c) (warr m c)) (flushed_eq m c) cover

end AtIdeal

end Cert.KernelIdeal.Tiles

end
-- ==== Proof.KernelRun.lean ====
/-
  The kernel's run, read: its result array holds the layer of its two argument arrays.

  Before the region the host flattens the activations to [8192, 4096]; the region leaves the flattened product in its
  output array (the tiles cover it); after the region the host lays the product's rows out as [4, 2048, 4096]. That
  last array is the linear layer of the launch contents of the two arguments, which end unchanged.
-/
import proofs.«134699_j82325933130246_1_alg».proof.Proof.Tiles

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.Ternary Cert.KernelIdeal.Tiles

variable (m : (ℓ : Loc nD τ sig) → Buf (Elt Ideal) ℓ) (ρ : Dev nD → PrngReg)

/-- The region finds the activations flattened. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The result array after the whole run: the region's product array, reshaped. -/
theorem result_eq (c : Dev nD) :
    Pipeline.afterTail₀ cfgs (dats m) 0 (V0 m) [hostOps1] c main_v2
      = linear (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = prod2 (xarr m c) (warr m c) :=
    (Pipeline.withArrays_arr spec0 launch0.win.arr_inj c _ _ 2).trans (final m c)
  rw [hw, xarr_eq m c, show warr m c = m ((c : Thread nD τ).loc main_arg1) from V_main_arg1 m c]
  exact unflatten_prod _ _ _ _

/-- THE RUN, READ: every weakly fair execution terminates with the result array at the layer of the two argument
    arrays' launch contents, and the arguments unchanged. -/
theorem run : θ_run defs (onTc (τ := τ) (main (F := Ideal))) ⟨m, fun _ => 0, ρ⟩ fun r => ∀ c : Dev nD,
      r.2.mem ((c : Thread nD τ).loc main_v2) = linear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference's result, entry by entry.

  The reference quantizes the whole weight matrix (two comparisons against broadcast thresholds, two selects between
  broadcast constants) and contracts the activations' last axis with the quantized weights' last axis. Read at
  (b, s, o) that is the sum over k of x (b, s, k) · quant (w (o, k)): the layer.
-/
import proofs.«134699_j82325933130246_1_alg».proof.Proof.Gen.ReferenceIdeal.Read
import proofs.«134699_j82325933130246_1_alg».proof.Proof.Layout

noncomputable section

open scoped BigOperators

namespace Cert.ReferenceIdeal.RefValue

open Idealize.ShloMosaic Idealize.ShloMosaic.ValueIdx
open Cert.ReferenceIdeal Cert.ReferenceIdeal.Read Cert.Ternary

/-- The quantized weight matrix at an entry is the quantizer of the weight there. -/
theorem quantized_apply (w : (⟨S4096x4096, .f32⟩ : BufTy).Contents (Elt Ideal)) (j : S4096x4096.Idx) :
    val_main_v6 (F := Ideal) w j = quant (w j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The reference's result is the layer. -/
theorem result_eq (x : (⟨S4x2048x4096, .f32⟩ : BufTy).Contents (Elt Ideal)) (w : (⟨S4096x4096, .f32⟩ : BufTy).Contents (Elt Ideal)) :
    val_main_v7 (F := Ideal) x w = linear x w := by
  funext i
  rw [val_main_v7_apply]
  unfold linear
  refine Finset.sum_congr rfl fun k _ => ?_
  rw [quantized_apply]
  have el : lidx_main_v7 i k = ix3 (i 0) (i 1) k :=
    funext fun a => by match a with | ⟨0, _⟩ => rfl | ⟨1, _⟩ => rfl | ⟨2, _⟩ => rfl
  have er : ridx_main_v7 i k = ix2 (i 2) k :=
    funext fun a => by match a with | ⟨0, _⟩ => rfl | ⟨1, _⟩ => rfl
  rw [el, er]
  rfl

end Cert.ReferenceIdeal.RefValue

end
-- ==== Proof.lean ====
/-
  A ternary linear layer: activations x of shape [4, 2048, 4096] times the transpose of the ternary quantization of a
  [4096, 4096] weight matrix (an entry above 1/2 becomes 1, one below -1/2 becomes -1, the rest 0).

  The kernel flattens the activations to [8192, 4096] and tiles the product 8 x 4 with the contraction axis cut in
  four: at each of the four steps of a tile it quantizes the weight tile, multiplies, and adds the product to an
  accumulator that starts from zero; after the fourth step the accumulator is the output tile. Over the extended
  reals narrowing to bfloat16 is the identity and addition is associative and commutative, so the four partial sums
  of a tile add up to the whole sum over the 4096 contraction positions; the tiles cover the product; and the final
  reshape restores the [4, 2048] row layout. The reference quantizes the whole matrix and contracts in one
  operation: the same sum, entry by entry. No finiteness of the inputs is needed for the equality.

  The three programs' runs also leave their arguments unchanged (the frames), and the idealized kernel is the kernel's
  own text read over the extended reals (nothing was rewritten).
-/
import proofs.«134699_j82325933130246_1_alg».proof.Defs
import proofs.«134699_j82325933130246_1_alg».proof.Proof.Gen.Kernel
import proofs.«134699_j82325933130246_1_alg».proof.Proof.Gen.Kernel.Skeleton
import proofs.«134699_j82325933130246_1_alg».proof.Proof.Gen.Kernel.Launch
import proofs.«134699_j82325933130246_1_alg».proof.Proof.Gen.Kernel.Points
import proofs.«134699_j82325933130246_1_alg».proof.Proof.Gen.Kernel.Frame
import proofs.«134699_j82325933130246_1_alg».proof.Proof.Gen.KernelIdeal
import proofs.«134699_j82325933130246_1_alg».proof.Proof.Gen.KernelIdeal.Skeleton
import proofs.«134699_j82325933130246_1_alg».proof.Proof.Gen.KernelIdeal.Launch
import proofs.«134699_j82325933130246_1_alg».proof.Proof.Gen.KernelIdeal.Points
import proofs.«134699_j82325933130246_1_alg».proof.Proof.Gen.KernelIdeal.Frame
import proofs.«134699_j82325933130246_1_alg».proof.Proof.Gen.ReferenceIdeal
import proofs.«134699_j82325933130246_1_alg».proof.Proof.Gen.Pre_finite_inputs
import proofs.«134699_j82325933130246_1_alg».proof.Proof.Gen.ReferenceIdeal.Run
import proofs.«134699_j82325933130246_1_alg».proof.Proof.Gen.ReferenceIdeal.Read
import proofs.«134699_j82325933130246_1_alg».proof.Proof.KernelRun
import proofs.«134699_j82325933130246_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end with the linear layer of the (agreeing) arguments in their result arrays. -/
theorem algebraic : Cert.algebraic_KernelIdeal_ReferenceIdeal := by
  intro m ρ m' ρ' _ hagree
  refine ⟨fun c => Cert.Ternary.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
